-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x4096 .f32) (main_arg1 : FVec F S4096x16 .f32) (main_arg2 : FVec F S16x4096 .f32) (main_arg3 : FVec F S4096x4096 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S16384x4096, .f32⟩
  | .hbm, ⟨6, _⟩ => ⟨S16384x4096, .bf16⟩
  | .hbm, ⟨7, _⟩ => ⟨S4096x4096, .f32⟩
  | .hbm, ⟨8, _⟩ => ⟨S4096x4096, .bf16⟩
  | .hbm, ⟨9, _⟩ => ⟨S4096x16, .bf16⟩
  | .hbm, ⟨10, _⟩ => ⟨S16x4096, .bf16⟩
  | .hbm, ⟨11, _⟩ => ⟨S1x4096, .f32⟩
  | .hbm, ⟨12, _⟩ => ⟨S16384x4096, .f32⟩
  | .hbm, ⟨13, _⟩ => ⟨S8x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S8x2048x16 : Shape := ⟨3, ![8, 2048, 16]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S8x2048x4096, .f32⟩
  | .hbm, ⟨6, _⟩ => ⟨S8x2048x16, .f32⟩
  | .hbm, ⟨7, _⟩ => ⟨S8x2048x4096, .f32⟩
  | .hbm, ⟨8, _⟩ => ⟨S8x2048x4096, .f32⟩
  | .hbm, ⟨9, _⟩ => ⟨S1x1x4096, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x16_S8x2048x16_2_0_01_1_n_n_wf : DotDims.WF S8x2048x4096 S4096x16 S8x2048x16 [2] [0] [0, 1] [1] [] []
  dot_S8x2048x16_S16x4096_S8x2048x4096_2_0_01_1_n_n_wf : DotDims.WF S8x2048x16 S16x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x16_S8x2048x16_2_0_01_1_n_n : DotDims S8x2048x4096 S4096x16 S8x2048x16 where
  lhsContracting := [2]
  rhsContracting := [0]
  lhsNonContracting := [0, 1]
  rhsNonContracting := [1]
  lhsBatch := []
  rhsBatch := []
  wf := dot_S8x2048x4096_S4096x16_S8x2048x16_2_0_01_1_n_n_wf
def dot_S8x2048x16_S16x4096_S8x2048x4096_2_0_01_1_n_n : DotDims S8x2048x16 S16x4096 S8x2048x4096 where
  lhsContracting := [2]
  rhsContracting := [0]
  lhsNonContracting := [0, 1]
  rhsNonContracting := [1]
  lhsBatch := []
  rhsBatch := []
  wf := dot_S8x2048x16_S16x4096_S8x2048x4096_2_0_01_1_n_n_wf

class Facts : Prop extends Facts₀ where

variable [Facts]
-- ==== Proof.Pieces.lean ====
/-
  What one grid point of the kernel leaves behind, as values.

  The kernel keeps two running sums in scratch memory across the four feature blocks of an output tile: the
  dense partial product (a 1024 x 1024 tile) and the rank-16 partial product (a 1024 x 16 tile).  At the first
  feature block both are zeroed and the block's two products added; at the two middle blocks the products are
  added to what the previous point left; at the last block the same happens and the output tile is formed from
  the two finished sums, the second factor of the low-rank pair, and the bias row.

  Each lemma below reads one buffer after one kind of point as the corresponding store's value — a function of
  the point's input blocks and of what the previous point left — for any float instance.
-/
import proofs.«142824_j45337674777318_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First feature block: the dense running sum is the block's product added to the zero tile. -/
theorem dense_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) :
    sout0_A_0 c i a3 h3 a4 h4 a5 h5 a6 h6 a7 h7 a8 h8 a9 h9 a10 h10 hc0 hc1 x0 x1 x2 x3 x4 = k0_pay3 (k0_pay1 (F := F)) x0 x1 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- First feature block: the rank-16 running sum is the block's product added to the zero tile. -/
theorem lowrank_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) :
    sout0_A_1 c i a3 h3 a4 h4 a5 h5 a6 h6 a7 h7 a8 h8 a9 h9 a10 h10 hc0 hc1 x0 x1 x2 x3 x4 = k0_pay4 (k0_pay2 (F := F)) x0 x2 := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, h3.read_unread, h5.read_unread, View.ld_unit_zero (S := S1024x1024) hz, View.ld_unit_zero (S := S1024x16) hz]

/-- A middle feature block: the dense running sum grows by the block's product. -/
theorem dense_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_0 c i a3 h3 a4 h4 a5 h5 a6 h6 a7 h7 a8 h8 a9 h9 a10 h10 hc0 hc1 x0 x1 x2 x3 x4 xs0 xs1 = k0_pay3 xs0 x0 x1 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h9.read_unread, View.ld_unit_zero (S := S1024x1024) hz]

/-- A middle feature block: the rank-16 running sum grows by the block's product. -/
theorem lowrank_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_1 c i a3 h3 a4 h4 a5 h5 a6 h6 a7 h7 a8 h8 a9 h9 a10 h10 hc0 hc1 x0 x1 x2 x3 x4 xs0 xs1 = k0_pay4 xs1 x0 x2 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h5.read_unread, h10.read_unread, View.ld_unit_zero (S := S1024x1024) hz, View.ld_unit_zero (S := S1024x16) hz]

/-- The last feature block: the dense running sum grows by the block's product, as at a middle block. -/
theorem dense_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_0 c i a3 h3 a4 h4 a5 h5 a6 h6 a7 h7 a8 h8 a9 h9 a10 h10 hc0 hc1 x0 x1 x2 x3 x4 xs0 xs1 = k0_pay3 xs0 x0 x1 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h9.read_unread, View.ld_unit_zero (S := S1024x1024) hz]

/-- The last feature block: the rank-16 running sum grows by the block's product, as at a middle block. -/
theorem lowrank_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_1 c i a3 h3 a4 h4 a5 h5 a6 h6 a7 h7 a8 h8 a9 h9 a10 h10 hc0 hc1 x0 x1 x2 x3 x4 xs0 xs1 = k0_pay4 xs1 x0 x2 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h5.read_unread, h10.read_unread, View.ld_unit_zero (S := S1024x1024) hz, View.ld_unit_zero (S := S1024x16) hz]

/-- The last feature block: the output tile is formed from the two sums just completed — the rank-16 sum
    times the second low-rank factor's block, added to the dense sum, plus the bias row. -/
theorem tile_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S16x1024 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    out0_C_5 c i a3 h3 a4 h4 a5 h5 a6 h6 a7 h7 a8 h8 a9 h9 a10 h10 hc0 hc1 x0 x1 x2 x3 x4 xs0 xs1 = k0_pay5 (k0_pay4 xs1 x0 x2) x3 (k0_pay3 xs0 x0 x1) x4 := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread, h10.read_unread,
    View.readCov_unit_zero (S := S1024x1024) _ hz, View.readCov_unit_zero (S := S1024x16) _ hz,
    View.ld_unit_zero (S := S1024x1024) hz, View.ld_unit_zero (S := S1024x16) hz, View.ld_unit_zero (S := S16x1024) hz, View.ld_unit_zero (S := S1x1024) hz]

end Cert.KernelIdeal.Pieces

end
-- ==== Proof.Payloads.lean ====
/-
  The kernel's five stored values read at one entry, over the extended reals.

  At the ideal instance a change of float format is the identity and a matrix product into the zero tile is
  the plain sum of products over the contracted coordinate.  So, entry by entry:
    the two reset values are zero;
    the dense update is    acc[p, l] + sum over e of x[p, e] * w[e, l]          (1024 terms);
    the rank-16 update is  acc[p, r] + sum over e of x[p, e] * a[e, r]          (1024 terms);
    the output tile is     (dense[p, l] + sum over r of low[p, r] * b[r, l]) + bias[0, l]   (16 terms).
-/
import proofs.«142824_j45337674777318_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-! ## The three matrix products' operand coordinates -/

theorem dense_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dense_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem dense_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem dense_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem low_lhs_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem low_lhs_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem low_rhs_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem low_rhs_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

theorem mix_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem mix_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem mix_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem mix_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-! ## The three matrix products at an entry -/

/-- A feature block of `x` times a block of the transposed weight, at entry (p, q): the sum over the block's 1024 features. -/
theorem dense_apply (l : FVec Ideal S1024x1024 .bf16) (r : FVec Ideal S1024x1024 .bf16) (p : Fin 1024) (q : Fin 1024) :
    matmul dot_S1024x1024_S1024x1024_S1024x1024_1_0_0_1_n_n none l r (constant (F := Ideal) S1024x1024 .f32 0x00000000#32) (ix2 p q)
      = ∑ e : Fin 1024, l (ix2 p e) * r (ix2 e q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact dense_lhs_0 _ _
    | ⟨1, _⟩ => exact (dense_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dense_rhs_0 _ _).trans hk
    | ⟨1, _⟩ => exact dense_rhs_1 _ _)
  rw [el, er]

/-- A feature block of `x` times a block of the first low-rank factor, at entry (p, q): the sum over the block's 1024 features. -/
theorem low_apply (l : FVec Ideal S1024x1024 .bf16) (r : FVec Ideal S1024x16 .bf16) (p : Fin 1024) (q : Fin 16) :
    matmul dot_S1024x1024_S1024x16_S1024x16_1_0_0_1_n_n none l r (constant (F := Ideal) S1024x16 .f32 0x00000000#32) (ix2 p q)
      = ∑ e : Fin 1024, l (ix2 p e) * r (ix2 e q) := by
  simp only [matmul]
  rw [Ideal.matmul_constant_zero_apply, ← Equiv.sum_comp (ValueIdx.contrEquiv1 dot_S1024x1024_S1024x16_S1024x16_1_0_0_1_n_n 1024 rfl rfl).symm]
  refine Finset.sum_congr rfl fun k _ => ?_
  have hk := ValueIdx.contrEquiv1_symm_val dot_S1024x1024_S1024x16_S1024x16_1_0_0_1_n_n 1024 rfl rfl k
  have el : dot_S1024x1024_S1024x16_S1024x16_1_0_0_1_n_n.lhsIdx (ix2 p q) ((ValueIdx.contrEquiv1 dot_S1024x1024_S1024x16_S1024x16_1_0_0_1_n_n 1024 rfl rfl).symm k) = ix2 p k := funext fun a => Fin.ext (by
    match a with
    | ⟨0, _⟩ => exact low_lhs_0 _ _
    | ⟨1, _⟩ => exact (low_lhs_1 _ _).trans hk)
  have er : dot_S1024x1024_S1024x16_S1024x16_1_0_0_1_n_n.rhsIdx (ix2 p q) ((ValueIdx.contrEquiv1 dot_S1024x1024_S1024x16_S1024x16_1_0_0_1_n_n 1024 rfl rfl).symm k) = ix2 k q := funext fun a => Fin.ext (by
    match a with
    | ⟨0, _⟩ => exact (low_rhs_0 _ _).trans hk
    | ⟨1, _⟩ => exact low_rhs_1 _ _)
  rw [el, er]

/-- The finished rank-16 sum times a block of the second low-rank factor, at entry (p, q): the sum over the 16 ranks. -/
theorem mix_apply (l : FVec Ideal S1024x16 .bf16) (r : FVec Ideal S16x1024 .bf16) (p : Fin 1024) (q : Fin 1024) :
    matmul dot_S1024x16_S16x1024_S1024x1024_1_0_0_1_n_n none l r (constant (F := Ideal) S1024x1024 .f32 0x00000000#32) (ix2 p q)
      = ∑ e : Fin 16, l (ix2 p e) * r (ix2 e q) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact mix_lhs_0 _ _
    | ⟨1, _⟩ => exact (mix_lhs_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (mix_rhs_0 _ _).trans hk
    | ⟨1, _⟩ => exact mix_rhs_1 _ _)
  rw [el, er]

/-! ## The five stored values at an entry -/

/-- The dense sum's reset value is zero everywhere. -/
theorem dense_reset_apply (j : S1024x1024.Idx) : k0_pay1 (F := Ideal) j = 0 := by
  unfold k0_pay1
  simp only [shapeCast_self]
  exact Ideal.ofBits_zero_f32

/-- The rank-16 sum's reset value is zero everywhere. -/
theorem low_reset_apply (j : S1024x16.Idx) : k0_pay2 (F := Ideal) j = 0 := by
  unfold k0_pay2
  simp only [shapeCast_self]
  exact Ideal.ofBits_zero_f32

/-- The dense update at (p, l): what was there plus the block's 1024 products. -/
theorem dense_step_apply (acc : Vec Ideal S1024x1024 .f32) (x w : Vec Ideal S1024x1024 .bf16) (p l : Fin 1024) :
    k0_pay3 (F := Ideal) acc x w (ix2 p l) = acc (ix2 p l) + ∑ e : Fin 1024, x (ix2 p e) * w (ix2 e l) := by
  unfold k0_pay3
  simp only [shapeCast_self]
  exact congrArg (acc (ix2 p l) + ·) (dense_apply x w p l)

/-- The rank-16 update at (p, r): what was there plus the block's 1024 products. -/
theorem low_step_apply (acc : Vec Ideal S1024x16 .f32) (x : Vec Ideal S1024x1024 .bf16) (a : Vec Ideal S1024x16 .bf16)
    (p : Fin 1024) (r : Fin 16) :
    k0_pay4 (F := Ideal) acc x a (ix2 p r) = acc (ix2 p r) + ∑ e : Fin 1024, x (ix2 p e) * a (ix2 e r) := by
  unfold k0_pay4
  simp only [shapeCast_self]
  exact congrArg (acc (ix2 p r) + ·) (low_apply x a p r)

/-- The bias row broadcast down the tile reads the row's entry in the same column. -/
theorem bias_row_apply (v : Vec Ideal S1x1024 .f32) (p l : Fin 1024) :
    broadcastTo S1024x1024 v broadcasts_S1x1024_S1024x1024 (ix2 p l) = v (ix2 (0 : Fin 1) l) :=
  broadcastTo_apply v broadcasts_S1x1024_S1024x1024 (ix2 p l) (ix2 (0 : Fin 1) l) (fun a => match a with
    | ⟨0, _⟩ => by show (0 : ℕ) = if (1 : ℕ) = 1 then 0 else _; rw [if_pos rfl]
    | ⟨1, _⟩ => by show l.val = if (1024 : ℕ) = 1 then 0 else l.val; rw [if_neg (by decide)])

/-- The output tile at (p, l): the dense sum there, plus the 16 products of the rank-16 sum's row with the
    second factor's column, plus the bias of the column. -/
theorem tile_apply (low : Vec Ideal S1024x16 .f32) (b : Vec Ideal S16x1024 .bf16) (dense : Vec Ideal S1024x1024 .f32)
    (bias : Vec Ideal S1x1024 .f32) (p l : Fin 1024) :
    k0_pay5 (F := Ideal) low b dense bias (ix2 p l)
      = (dense (ix2 p l) + ∑ r : Fin 16, low (ix2 p r) * b (ix2 r l)) + bias (ix2 (0 : Fin 1) l) := by
  unfold k0_pay5
  simp only [shapeCast_self]
  refine (congrArg₂ (· + ·) (congrArg (dense (ix2 p l) + ·) ?_) (bias_row_apply bias p l))
  exact mix_apply (truncf (F := Ideal) .bf16 low bitsLt_bf16_f32) b p l

end Cert.KernelIdeal.Payload

end
-- ==== Proof.BlockSum.lean ====
/-
  Arithmetic of the low-rank-corrected dense layer, away from any program.

  The kernel walks the 4096 input features in four blocks of 1024 and keeps two running sums per output tile;
  the reference contracts all 4096 features at once.  Over a commutative monoid a sum of 4096 consecutive
  terms is the sum over four consecutive blocks of 1024 terms, whatever the terms are — only associativity
  and commutativity of addition are used, so the extended reals' infinities are harmless.

  Arrays are read here at NATURAL coordinates (`at1`, `at2`, `at3`: zero outside the extents), so that a
  block offset `1024 * s + e` is an ordinary sum of naturals under a binder.
-/
import Mathlib.Algebra.BigOperators.Fin
import Idealize.ShloMosaic.PureOps.Ideal
import Idealize.ShloMosaic.Lib.ValueIdx

noncomputable section

open scoped BigOperators
open Idealize.ShloMosaic Idealize.ShloMosaic.ValueIdx

namespace Cert.LowRank

/-- A rank-1 array read at a natural coordinate; zero past its extent. -/
def at1 {n0 : ℕ} (v : (⟨1, ![n0]⟩ : Shape).Idx → EReal) (a : ℕ) : EReal :=
  if h : a < n0 then v (ix1 ⟨a, h⟩) else 0

/-- A rank-2 array read at natural coordinates; zero outside its extents. -/
def at2 {n0 n1 : ℕ} (v : (⟨2, ![n0, n1]⟩ : Shape).Idx → EReal) (a b : ℕ) : EReal :=
  if h : a < n0 ∧ b < n1 then v (ix2 ⟨a, h.1⟩ ⟨b, h.2⟩) else 0

/-- A rank-3 array read at natural coordinates; zero outside its extents. -/
def at3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

theorem at1_of_lt {n0 : ℕ} (v : (⟨1, ![n0]⟩ : Shape).Idx → EReal) (a : ℕ) (h : a < n0) :
    at1 v a = v (ix1 ⟨a, h⟩) := dif_pos h

theorem at2_of_lt {n0 n1 : ℕ} (v : (⟨2, ![n0, n1]⟩ : Shape).Idx → EReal) (a b : ℕ) (ha : a < n0) (hb : b < n1) :
    at2 v a b = v (ix2 ⟨a, ha⟩ ⟨b, hb⟩) := dif_pos ⟨ha, hb⟩

theorem at3_of_lt {n0 n1 n2 : ℕ} (v : (⟨3, ![n0, n1, n2]⟩ : Shape).Idx → EReal) (a b c : ℕ)
    (ha : a < n0) (hb : b < n1) (hc : c < n2) : at3 v a b c = v (ix3 ⟨a, ha⟩ ⟨b, hb⟩ ⟨c, hc⟩) :=
  dif_pos ⟨ha, hb, hc⟩

/-- An entry of a rank-2 array is the array read at the entry's coordinates. -/
theorem eq_at2 {n0 n1 : ℕ} (v : (⟨2, ![n0, n1]⟩ : Shape).Idx → EReal) (j : (⟨2, ![n0, n1]⟩ : Shape).Idx) :
    v j = at2 v (j 0).val (j 1).val := by
  rw [at2_of_lt v _ _ (j 0).isLt (j 1).isLt]
  exact congrArg v (eq_ix2 j)

/-- A sum over `n * k` consecutive naturals, block by block: `n` blocks of `k` terms. -/
theorem sum_range_blocks {M : Type*} [AddCommMonoid M] (f : ℕ → M) (k : ℕ) : ∀ n : ℕ,
    ∑ d ∈ Finset.range (n * k), f d = ∑ s ∈ Finset.range n, ∑ e ∈ Finset.range k, f (k * s + e)
  | 0 => by simp
  | n + 1 => by
    rw [Nat.succ_mul, Finset.sum_range_add, sum_range_blocks f k n, Finset.sum_range_succ, Nat.mul_comm k n]

/-- The running sum the kernel keeps — zero, then the four blocks' partial sums added in turn — is the
    whole contraction over the 4096 features. -/
theorem four_blocks (f : ℕ → EReal) :
    (0 : EReal) + ∑ s ∈ Finset.range (3 + 1), ∑ e : Fin 1024, f (1024 * s + e.val) = ∑ d : Fin 4096, f d.val := by
  rw [zero_add, ← Finset.sum_range (fun d => f d), show (4096 : ℕ) = 4 * 1024 from rfl, sum_range_blocks f 1024 4]
  refine Finset.sum_congr rfl fun s _ => ?_
  exact (Finset.sum_range (fun e => f (1024 * s + e))).symm

end Cert.LowRank

end
-- ==== Proof.Tiles.lean ====
/-
  Where each grid point's input tiles sit in the arrays the kernel region is entered with.

  The grid has 16 x 4 x 4 = 256 points; point t is row tile t / 16, column tile (t / 4) % 4 and feature
  block t % 4.  Entry (p, e) of the activations' tile at point t is entry (1024 (t/16) + p, 1024 (t%4) + e)
  of the flattened activations; the transposed weight's tile starts at row 1024 (t%4) and column
  1024 ((t/4)%4); the first low-rank factor's at row 1024 (t%4); the second factor's and the bias row's at
  column 1024 ((t/4)%4).
-/
import proofs.«142824_j45337674777318_1_alg».proof.Proof.Gen.KernelIdeal.Frame
import proofs.«142824_j45337674777318_1_alg».proof.Proof.BlockSum
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.LowRank

variable (m : (ℓ : Loc nD τ sig) → Buf (Elt Ideal) ℓ)

/-- The five arrays the region is entered with, at their literal types: the flattened activations, the
    transposed weight, the two low-rank factors and the bias as a row. -/
abbrev actv (c : Dev nD) : Vec Ideal S16384x4096 .bf16 := V m c main_v1
abbrev wgtT (c : Dev nD) : Vec Ideal S4096x4096 .bf16 := V m c main_v3
abbrev facA (c : Dev nD) : Vec Ideal S4096x16 .bf16 := V m c main_v4
abbrev facB (c : Dev nD) : Vec Ideal S16x4096 .bf16 := V m c main_v5
abbrev biasRow (c : Dev nD) : Vec Ideal S1x4096 .f32 := V m c main_v6

/-- The tiles of those arrays at grid point n. -/
abbrev actvTile (c : Dev nD) (n : ℕ) (h : n < cfg0.N) : Vec Ideal S1024x1024 .bf16 := iblk m c 0 ⟨n, h⟩
abbrev wgtTile (c : Dev nD) (n : ℕ) (h : n < cfg0.N) : Vec Ideal S1024x1024 .bf16 := iblk m c 1 ⟨n, h⟩
abbrev facATile (c : Dev nD) (n : ℕ) (h : n < cfg0.N) : Vec Ideal S1024x16 .bf16 := iblk m c 2 ⟨n, h⟩
abbrev facBTile (c : Dev nD) (n : ℕ) (h : n < cfg0.N) : Vec Ideal S16x1024 .bf16 := iblk m c 3 ⟨n, h⟩
abbrev biasTile (c : Dev nD) (n : ℕ) (h : n < cfg0.N) : Vec Ideal S1x1024 .f32 := iblk m c 4 ⟨n, h⟩

/-- The printed index maps as arithmetic of the point's number, decided once over the 256 points. -/
theorem tile_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt_N {n : ℕ} (h : n < cfg0.N) : n < 256 := lt_of_lt_of_eq h (show cfg0.N = 256 from N_0)

/-- The activations' tile. -/
theorem actvTile_apply (c : Dev nD) (n : ℕ) (h : n < cfg0.N) (p e : Fin 1024) :
    actvTile m c n h (ix2 p e) = at2 (actv m c) (1024 * (n / 16) + p.val) (1024 * (n % 4) + e.val) := by
  have hn := lt_N h
  obtain ⟨i0, i1, -⟩ := tile_index ⟨n, h⟩
  rw [at2_of_lt _ _ _ (by omega) (by omega)]
  unfold actvTile iblk
  rw [View.read_apply]
  show V m c main_v1 _ = V m c main_v1 _
  congr 1
  funext a
  apply Fin.ext
  match a with
  | ⟨0, _⟩ => show win0_0.index ⟨n, h⟩ (0 : Fin 2) * 1024 + 1 * p.val = 1024 * (n / 16) + p.val; rw [i0]; dsimp only; omega
  | ⟨1, _⟩ => show win0_0.index ⟨n, h⟩ (1 : Fin 2) * 1024 + 1 * e.val = 1024 * (n % 4) + e.val; rw [i1]; dsimp only; omega

/-- The transposed weight's tile. -/
theorem wgtTile_apply (c : Dev nD) (n : ℕ) (h : n < cfg0.N) (e l : Fin 1024) :
    wgtTile m c n h (ix2 e l) = at2 (wgtT m c) (1024 * (n % 4) + e.val) (1024 * (n / 4 % 4) + l.val) := by
  have hn := lt_N h
  obtain ⟨-, -, i0, i1, -⟩ := tile_index ⟨n, h⟩
  rw [at2_of_lt _ _ _ (by omega) (by omega)]
  unfold wgtTile iblk
  rw [View.read_apply]
  show V m c main_v3 _ = V m c main_v3 _
  congr 1
  funext a
  apply Fin.ext
  match a with
  | ⟨0, _⟩ => show win0_1.index ⟨n, h⟩ (0 : Fin 2) * 1024 + 1 * e.val = 1024 * (n % 4) + e.val; rw [i0]; dsimp only; omega
  | ⟨1, _⟩ => show win0_1.index ⟨n, h⟩ (1 : Fin 2) * 1024 + 1 * l.val = 1024 * (n / 4 % 4) + l.val; rw [i1]; dsimp only; omega

/-- The first low-rank factor's tile. -/
theorem facATile_apply (c : Dev nD) (n : ℕ) (h : n < cfg0.N) (e : Fin 1024) (r : Fin 16) :
    facATile m c n h (ix2 e r) = at2 (facA m c) (1024 * (n % 4) + e.val) r.val := by
  have hn := lt_N h
  obtain ⟨-, -, -, -, i0, i1, -⟩ := tile_index ⟨n, h⟩
  rw [at2_of_lt _ _ _ (by omega) r.isLt]
  unfold facATile iblk
  rw [View.read_apply]
  show V m c main_v4 _ = V m c main_v4 _
  congr 1
  funext a
  apply Fin.ext
  match a with
  | ⟨0, _⟩ => show win0_2.index ⟨n, h⟩ (0 : Fin 2) * 1024 + 1 * e.val = 1024 * (n % 4) + e.val; rw [i0]; dsimp only; omega
  | ⟨1, _⟩ => show win0_2.index ⟨n, h⟩ (1 : Fin 2) * 16 + 1 * r.val = r.val; rw [i1]; omega

/-- The second low-rank factor's tile. -/
theorem facBTile_apply (c : Dev nD) (n : ℕ) (h : n < cfg0.N) (r : Fin 16) (l : Fin 1024) :
    facBTile m c n h (ix2 r l) = at2 (facB m c) r.val (1024 * (n / 4 % 4) + l.val) := by
  have hn := lt_N h
  obtain ⟨-, -, -, -, -, -, i0, i1, -⟩ := tile_index ⟨n, h⟩
  rw [at2_of_lt _ _ _ r.isLt (by omega)]
  unfold facBTile iblk
  rw [View.read_apply]
  show V m c main_v5 _ = V m c main_v5 _
  congr 1
  funext a
  apply Fin.ext
  match a with
  | ⟨0, _⟩ => show win0_3.index ⟨n, h⟩ (0 : Fin 2) * 16 + 1 * r.val = r.val; rw [i0]; omega
  | ⟨1, _⟩ => show win0_3.index ⟨n, h⟩ (1 : Fin 2) * 1024 + 1 * l.val = 1024 * (n / 4 % 4) + l.val; rw [i1]; dsimp only; omega

/-- The bias row's tile. -/
theorem biasTile_apply (c : Dev nD) (n : ℕ) (h : n < cfg0.N) (l : Fin 1024) :
    biasTile m c n h (ix2 (0 : Fin 1) l) = at2 (biasRow m c) 0 (1024 * (n / 4 % 4) + l.val) := by
  have hn := lt_N h
  obtain ⟨-, -, -, -, -, -, -, -, i0, i1, -⟩ := tile_index ⟨n, h⟩
  rw [at2_of_lt _ _ _ (by decide) (by omega)]
  unfold biasTile iblk
  rw [View.read_apply]
  show V m c main_v6 _ = V m c main_v6 _
  congr 1
  funext a
  apply Fin.ext
  match a with
  | ⟨0, _⟩ => show win0_4.index ⟨n, h⟩ (0 : Fin 2) * 1 + 1 * 0 = 0; rw [i0]
  | ⟨1, _⟩ => show win0_4.index ⟨n, h⟩ (1 : Fin 2) * 1024 + 1 * l.val = 1024 * (n / 4 % 4) + l.val; rw [i1]; dsimp only; omega

end Cert.KernelIdeal.Tiles

end
-- ==== Proof.Sums.lean ====
/-
  The two running sums, point by point, and what they have reached when an output tile is written.

  After grid point n the scratch tiles hold the running sums of the current output tile: reset at the points
  n with n % 4 = 0, grown by the point's two products at the others.  So at a point t with t % 4 = 3 (the only
  points that write a tile back) the dense sum at (p, l) is

      0 + sum over the four feature blocks s of  sum over e < 1024 of  x[R, 1024 s + e] * wT[1024 s + e, Q]

  with R = 1024 (t/16) + p and Q = 1024 ((t/4)%4) + l, which is the contraction over all 4096 features; the
  rank-16 sum likewise against the first low-rank factor.  The tile written there is then the dense sum plus
  the rank-16 sum's row times the second factor's column, plus the column's bias.
-/
import proofs.«142824_j45337674777318_1_alg».proof.Proof.Pieces
import proofs.«142824_j45337674777318_1_alg».proof.Proof.Payloads
import proofs.«142824_j45337674777318_1_alg».proof.Proof.Tiles

noncomputable section

open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.LowRank Cert.KernelIdeal.Tiles

variable (m : (ℓ : Loc nD τ sig) → Buf (Elt Ideal) ℓ)

/-- The dense running sum after point n. -/
def denseAt (c : Dev nD) (n : ℕ) (h : n < cfg0.N) : Vec Ideal S1024x1024 .f32 := (outsAt0 m c n h).2.1
/-- The rank-16 running sum after point n. -/
def lowAt (c : Dev nD) (n : ℕ) (h : n < cfg0.N) : Vec Ideal S1024x16 .f32 := (outsAt0 m c n h).2.2

/-- At the first feature block both sums restart from zero. -/
theorem denseAt_reset (c : Dev nD) (n : ℕ) (h : n < cfg0.N) (h0 : n % 4 = 0) :
    denseAt m c n h = k0_pay3 (k0_pay1 (F := Ideal)) (actvTile m c n h) (wgtTile m c n h) := by
  have h1 : ¬n % 4 = 3 := by omega
  unfold denseAt
  rw [outsAt0_A m c ⟨n, h⟩ h0 h1]
  dsimp only
  exact Pieces.dense_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

theorem lowAt_reset (c : Dev nD) (n : ℕ) (h : n < cfg0.N) (h0 : n % 4 = 0) :
    lowAt m c n h = k0_pay4 (k0_pay2 (F := Ideal)) (actvTile m c n h) (facATile m c n h) := by
  have h1 : ¬n % 4 = 3 := by omega
  unfold lowAt
  rw [outsAt0_A m c ⟨n, h⟩ h0 h1]
  dsimp only
  exact Pieces.lowrank_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- At every other feature block each sum grows by the block's product. -/
theorem denseAt_step (c : Dev nD) (n : ℕ) (h : n + 1 < cfg0.N) (h0 : ¬(n + 1) % 4 = 0) :
    denseAt m c (n + 1) h = k0_pay3 (F := Ideal) (denseAt m c n (Nat.lt_of_succ_lt h)) (actvTile m c (n + 1) h) (wgtTile m c (n + 1) h) := by
  unfold denseAt
  by_cases h1 : (n + 1) % 4 = 3
  · rw [outsAt0_C m c ⟨n + 1, h⟩ h0 h1]
    dsimp only
    exact Pieces.dense_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact Pieces.dense_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

theorem lowAt_step (c : Dev nD) (n : ℕ) (h : n + 1 < cfg0.N) (h0 : ¬(n + 1) % 4 = 0) :
    lowAt m c (n + 1) h = k0_pay4 (F := Ideal) (lowAt m c n (Nat.lt_of_succ_lt h)) (actvTile m c (n + 1) h) (facATile m c (n + 1) h) := by
  unfold lowAt
  by_cases h1 : (n + 1) % 4 = 3
  · rw [outsAt0_C m c ⟨n + 1, h⟩ h0 h1]
    dsimp only
    exact Pieces.lowrank_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  · rw [outsAt0_B m c ⟨n + 1, h⟩ h0 h1]
    dsimp only
    exact Pieces.lowrank_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2

/-- The tile a writing point leaves in the output's buffer, over the two sums as they stand after that point. -/
theorem tileAt (c : Dev nD) (n : ℕ) (h : n < cfg0.N) (h3 : n % 4 = 3) :
    (outsAt0 m c n h).1 = k0_pay5 (F := Ideal) (lowAt m c n h) (facBTile m c n h) (denseAt m c n h) (biasTile m c n h) := by
  have h0 : ¬n % 4 = 0 := by omega
  obtain ⟨k, rfl⟩ : ∃ k, n = k + 1 := ⟨n - 1, by omega⟩
  rw [lowAt_step m c k h h0, denseAt_step m c k h h0]
  unfold denseAt lowAt
  rw [outsAt0_C m c ⟨k + 1, h⟩ h0 h3]
  dsimp only
  exact Pieces.tile_last (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole _) scM0_1 (Memref.isWhole_whole _) (fun hh => h0 ((hcond0_0 ⟨k + 1, h⟩).mp hh)) ((hcond0_1 ⟨k + 1, h⟩).mpr h3) (iblk m c 0 ⟨k + 1, h⟩) (iblk m c 1 ⟨k + 1, h⟩) (iblk m c 2 ⟨k + 1, h⟩) (iblk m c 3 ⟨k + 1, h⟩) (iblk m c 4 ⟨k + 1, h⟩) (outsAt0 m c k (Nat.lt_of_succ_lt h)).2.1 (outsAt0 m c k (Nat.lt_of_succ_lt h)).2.2

/-! ## The sums as folds over a tile's four points, and their closed forms -/

/-- One feature block's contribution to the dense sum at a tile entry, from the whole arrays. -/
def denseTerm (c : Dev nD) (n : ℕ) (j : S1024x1024.Idx) : EReal :=
  ∑ e : Fin 1024, at2 (actv m c) (1024 * (n / 16) + (j 0).val) (1024 * (n % 4) + e.val)
    * at2 (wgtT m c) (1024 * (n % 4) + e.val) (1024 * (n / 4 % 4) + (j 1).val)

/-- One feature block's contribution to the rank-16 sum at a tile entry. -/
def lowTerm (c : Dev nD) (n : ℕ) (j : S1024x16.Idx) : EReal :=
  ∑ e : Fin 1024, at2 (actv m c) (1024 * (n / 16) + (j 0).val) (1024 * (n % 4) + e.val)
    * at2 (facA m c) (1024 * (n % 4) + e.val) (j 1).val

theorem dense_update_apply (c : Dev nD) (n : ℕ) (h : n < cfg0.N) (acc : Vec Ideal S1024x1024 .f32) (j : S1024x1024.Idx) :
    k0_pay3 (F := Ideal) acc (actvTile m c n h) (wgtTile m c n h) j = acc j + denseTerm m c n j := by
  obtain ⟨p, l, rfl⟩ : ∃ (p l : Fin 1024), j = ix2 p l := ⟨j 0, j 1, eq_ix2 j⟩
  rw [Payload.dense_step_apply]
  exact congrArg (acc (ix2 p l) + ·) (Finset.sum_congr rfl fun e _ =>
    congrArg₂ (· * ·) (actvTile_apply m c n h p e) (wgtTile_apply m c n h e l))

theorem low_update_apply (c : Dev nD) (n : ℕ) (h : n < cfg0.N) (acc : Vec Ideal S1024x16 .f32) (j : S1024x16.Idx) :
    k0_pay4 (F := Ideal) acc (actvTile m c n h) (facATile m c n h) j = acc j + lowTerm m c n j := by
  obtain ⟨p, r, rfl⟩ : ∃ (p : Fin 1024) (r : Fin 16), j = ix2 p r := ⟨j 0, j 1, eq_ix2 j⟩
  rw [Payload.low_step_apply]
  exact congrArg (acc (ix2 p r) + ·) (Finset.sum_congr rfl fun e _ =>
    congrArg₂ (· * ·) (actvTile_apply m c n h p e) (facATile_apply m c n h e r))

/-- The dense sum at a writing point: the contraction over all 4096 features. -/
theorem dense_done (c : Dev nD) (t : ℕ) (ht : t < cfg0.N) (h3 : t % 4 = 3) (j : S1024x1024.Idx) :
    denseAt m c t ht j = ∑ d : Fin 4096, at2 (actv m c) (1024 * (t / 16) + (j 0).val) d.val
      * at2 (wgtT m c) d.val (1024 * (t / 4 % 4) + (j 1).val) := by
  have h' : 4 * (t / 4) + t % 4 < cfg0.N := by rw [Nat.div_add_mod]; exact ht
  rw [Pipeline.eq_accAt_of_mod (denseAt m c) 4
      (fun n h => k0_pay3 (k0_pay1 (F := Ideal)) (actvTile m c n h) (wgtTile m c n h))
      (fun n h acc => k0_pay3 (F := Ideal) acc (actvTile m c n h) (wgtTile m c n h))
      (denseAt_reset m c) (denseAt_step m c) (by decide) t ht h']
  rw [Pipeline.accAt_add_apply (ι := S1024x1024.Idx) (β := EReal) _ _ (fun _ => 0) (denseTerm m c) (4 * (t / 4)) 3
      (fun h i => by rw [dense_update_apply, Payload.dense_reset_apply])
      (fun n h acc i _ _ => dense_update_apply m c n h acc i) (t % 4) (by omega) h' j, h3]
  rw [← four_blocks (fun d => at2 (actv m c) (1024 * (t / 16) + (j 0).val) d * at2 (wgtT m c) d (1024 * (t / 4 % 4) + (j 1).val))]
  refine congrArg ((0 : EReal) + ·) (Finset.sum_congr rfl fun s hs => ?_)
  have hs4 : s < 4 := Finset.mem_range.mp hs
  unfold denseTerm
  rw [show (4 * (t / 4) + s) / 16 = t / 16 by omega, show (4 * (t / 4) + s) % 4 = s by omega,
    show (4 * (t / 4) + s) / 4 % 4 = t / 4 % 4 by omega]

/-- The rank-16 sum at a writing point: the contraction over all 4096 features. -/
theorem low_done (c : Dev nD) (t : ℕ) (ht : t < cfg0.N) (h3 : t % 4 = 3) (j : S1024x16.Idx) :
    lowAt m c t ht j = ∑ d : Fin 4096, at2 (actv m c) (1024 * (t / 16) + (j 0).val) d.val
      * at2 (facA m c) d.val (j 1).val := by
  have h' : 4 * (t / 4) + t % 4 < cfg0.N := by rw [Nat.div_add_mod]; exact ht
  rw [Pipeline.eq_accAt_of_mod (lowAt m c) 4
      (fun n h => k0_pay4 (k0_pay2 (F := Ideal)) (actvTile m c n h) (facATile m c n h))
      (fun n h acc => k0_pay4 (F := Ideal) acc (actvTile m c n h) (facATile m c n h))
      (lowAt_reset m c) (lowAt_step m c) (by decide) t ht h']
  rw [Pipeline.accAt_add_apply (ι := S1024x16.Idx) (β := EReal) _ _ (fun _ => 0) (lowTerm m c) (4 * (t / 4)) 3
      (fun h i => by rw [low_update_apply, Payload.low_reset_apply])
      (fun n h acc i _ _ => low_update_apply m c n h acc i) (t % 4) (by omega) h' j, h3]
  rw [← four_blocks (fun d => at2 (actv m c) (1024 * (t / 16) + (j 0).val) d * at2 (facA m c) d (j 1).val)]
  refine congrArg ((0 : EReal) + ·) (Finset.sum_congr rfl fun s hs => ?_)
  have hs4 : s < 4 := Finset.mem_range.mp hs
  unfold lowTerm
  rw [show (4 * (t / 4) + s) / 16 = t / 16 by omega, show (4 * (t / 4) + s) % 4 = s by omega]

/-- One entry of the layer's output from the five arrays, at natural coordinates: the dense contraction, plus the
    rank-16 contraction carried through the second factor, plus the bias. -/
def outEntry (X : S16384x4096.Idx → EReal) (W : S4096x4096.Idx → EReal) (A : S4096x16.Idx → EReal)
    (B : S16x4096.Idx → EReal) (bias : S1x4096.Idx → EReal) (r q : ℕ) : EReal :=
  (∑ d : Fin 4096, at2 X r d.val * at2 W d.val q
    + ∑ k : Fin 16, (∑ d : Fin 4096, at2 X r d.val * at2 A d.val k.val) * at2 B k.val q) + at2 bias 0 q

/-- The tile written at a writing point, entry by entry. -/
theorem tileAt_apply (c : Dev nD) (t : ℕ) (ht : t < cfg0.N) (h3 : t % 4 = 3) (p l : Fin 1024) :
    (outsAt0 m c t ht).1 (ix2 p l)
      = outEntry (actv m c) (wgtT m c) (facA m c) (facB m c) (biasRow m c) (1024 * (t / 16) + p.val) (1024 * (t / 4 % 4) + l.val) := by
  rw [tileAt m c t ht h3, Payload.tile_apply, dense_done m c t ht h3, biasTile_apply]
  unfold outEntry
  refine congrArg (· + at2 (biasRow m c) 0 (1024 * (t / 4 % 4) + l.val)) (congrArg (_ + ·) (Finset.sum_congr rfl fun k _ => ?_))
  rw [low_done m c t ht h3, facBTile_apply]

end Cert.KernelIdeal.Sums

end
-- ==== Proof.Result.lean ====
/-
  The kernel program's result, read off its run.

  Only the points t with t % 4 = 3 write a tile back, and the tile written at t is the 1024 x 1024 tile at row
  tile t / 16 and column tile (t / 4) % 4 of ONE function of the arrays the region was entered with
  (`regionOut`): every entry (r, q) is the contraction of row r of the activations with column q of the
  transposed weight, plus the rank-16 contraction carried through the second factor, plus the bias of column q.
  The 64 written tiles cover the 16384 x 4096 array, so the array ends at `regionOut`; the host line after the
  region reshapes it to 8 x 2048 x 4096.

  Then the arrays the region was entered with are read back to the program's arguments: the activations are the
  first argument flattened, the transposed weight is the weight with its axes exchanged, the two factors are
  themselves and the bias row is the bias (a change of float format is the identity over the extended reals).
-/
import proofs.«142824_j45337674777318_1_alg».proof.Proof.Sums

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LowRank Cert.KernelIdeal.Tiles Cert.KernelIdeal.Sums

variable (m : (ℓ : Loc nD τ sig) → Buf (Elt Ideal) ℓ) (ρ : Dev nD → PrngReg)

/-- The region's output array as one function of the arrays it is entered with. -/
def regionOut (c : Dev nD) : Vec Ideal S16384x4096 .f32 := fun j =>
  outEntry (actv m c) (wgtT m c) (facA m c) (facB m c) (biasRow m c) (j 0).val (j 1).val

/-- What a writing point writes back is its tile of `regionOut`. -/
theorem flushed_eq (c : Dev nD) (t : Fin cfg0.N) (hf : (cfg0.win 5).flush t = true) :
    (dats m 0 c).flushed 5 t = ((cfg0.win 5).blk t).view.read (Elt Ideal) (regionOut m c) := by
  have h3 : t.val % 4 = 3 := (flush0_5 t).mp hf
  obtain ⟨-, -, -, -, -, -, -, -, -, -, i0, i1⟩ := tile_index t
  show (cfg0.win 5).cut (grid0.coords t) ((dats m 0 c).after 5 t) = _
  rw [after0_5]
  funext j
  show (outsAt0 m c t.val t.isLt).1 j = regionOut m c (((cfg0.win 5).blk t).view.emb j)
  have hj0 : (j 0).val < 1024 := (j 0).isLt
  have hj1 : (j 1).val < 1024 := (j 1).isLt
  have e0 : ((((cfg0.win 5).blk t).view.emb j) 0).val = 1024 * (t.val / 16) + (j 0).val := by
    show win0_5.index t (0 : Fin 2) * 1024 + 1 * (j 0).val = _; rw [i0]; omega
  have e1 : ((((cfg0.win 5).blk t).view.emb j) 1).val = 1024 * (t.val / 4 % 4) + (j 1).val := by
    show win0_5.index t (1 : Fin 2) * 1024 + 1 * (j 1).val = _; rw [i1]; omega
  unfold regionOut
  rw [e0, e1]
  refine Eq.trans (congrArg (outsAt0 m c t.val t.isLt).1 ?_) (tileAt_apply m c t.val t.isLt h3 (j 0) (j 1))
  funext a
  match a with
  | ⟨0, _⟩ => rfl
  | ⟨1, _⟩ => rfl

/-- An entry of the array lies in point t's tile when each coordinate lies in the tile's range. -/
theorem mem_tile (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v7).slice (win0_5.rect t)).set ↔ _
  rw [View.set_slice_whole, Rect.mem_set_unit]
  exact Iff.rfl

/-- Every entry is in the tile of the writing point of its row tile and column tile. -/
theorem covered (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 256 := N_0
  have ht : 16 * ((i 0).val / 1024) + 4 * ((i 1).val / 1024) + 3 < cfg0.N := by rw [hN]; omega
  obtain ⟨-, -, -, -, -, -, -, -, -, -, i0, i1⟩ := tile_index ⟨_, ht⟩
  refine ⟨⟨_, ht⟩, (flush0_5 ⟨_, ht⟩).mpr (by dsimp only; omega), ?_⟩
  rw [mem_tile]
  intro a
  match a with
  | ⟨0, _⟩ =>
    show win0_5.index ⟨_, ht⟩ (0 : Fin 2) * 1024 ≤ (i 0).val ∧ (i 0).val < win0_5.index ⟨_, ht⟩ (0 : Fin 2) * 1024 + 1024
    rw [i0]; dsimp only; omega
  | ⟨1, _⟩ =>
    show win0_5.index ⟨_, ht⟩ (1 : Fin 2) * 1024 ≤ (i 1).val ∧ (i 1).val < win0_5.index ⟨_, ht⟩ (1 : Fin 2) * 1024 + 1024
    rw [i1]; dsimp only; omega

/-- So the region's output array ends at `regionOut`. -/
theorem final (c : Dev nD) : (dats m 0 c).arrAt 5 cfg0.N = regionOut m c :=
  (dats m 0 c).arrAt_eq_of_cover 5 (regionOut m c) (flushed_eq m c) covered

/-- The program's result: the region's output reshaped to 8 x 2048 x 4096. -/
def result (c : Dev nD) : Vec Ideal S8x2048x4096 .f32 :=
  shapeCast S8x2048x4096 (regionOut m c) shapeCasts_S16384x4096_S8x2048x4096

/-- The host line after the region writes it. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v7)
      = regionOut m c from
    (Pipeline.withArrays_arr spec0 launch0.win.arr_inj c (V0 m c) (fun w => (dats m 0 c).arrAt w (cfgs 0).N) 5).trans (final m c)]
  rfl

/-- The kernel program's run, read: the result buffer at `result`, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Layer.lean ====
/-
  One entry of the layer's output from the program's five arguments, at natural coordinates.

  For activations x[b, s, d], factors A[d, k] and B[k, o], weight w[o, d] and bias[o]:

      out[b, s, o] = ( sum over d of x[b,s,d] * w[o,d]  +  sum over k of (sum over d of x[b,s,d] * A[d,k]) * B[k,o] ) + bias[o]

  Both programs are shown to end at this function of the arguments.
-/
import proofs.«142824_j45337674777318_1_alg».proof.Proof.BlockSum

noncomputable section

open scoped BigOperators
open Idealize.ShloMosaic Idealize.ShloMosaic.ValueIdx

namespace Cert.LowRank

theorem at1_ix {n0 : ℕ} (v : (⟨1, ![n0]⟩ : Shape).Idx → EReal) (a : Fin n0) : at1 v a.val = v (ix1 a) :=
  at1_of_lt v a.val a.isLt

theorem at2_ix {n0 n1 : ℕ} (v : (⟨2, ![n0, n1]⟩ : Shape).Idx → EReal) (a : Fin n0) (b : Fin n1) :
    at2 v a.val b.val = v (ix2 a b) :=
  at2_of_lt v a.val b.val a.isLt b.isLt

theorem at3_ix {n0 n1 n2 : ℕ} (v : (⟨3, ![n0, n1, n2]⟩ : Shape).Idx → EReal) (a : Fin n0) (b : Fin n1) (c : Fin n2) :
    at3 v a.val b.val c.val = v (ix3 a b c) :=
  at3_of_lt v a.val b.val c.val a.isLt b.isLt c.isLt

/-- The layer's output entry (b, s, o). -/
def layerEntry (x : (⟨3, ![8, 2048, 4096]⟩ : Shape).Idx → EReal) (A : (⟨2, ![4096, 16]⟩ : Shape).Idx → EReal)
    (B : (⟨2, ![16, 4096]⟩ : Shape).Idx → EReal) (w : (⟨2, ![4096, 4096]⟩ : Shape).Idx → EReal)
    (bias : (⟨1, ![4096]⟩ : Shape).Idx → EReal) (b s o : ℕ) : EReal :=
  (∑ d : Fin 4096, at3 x b s d.val * at2 w o d.val
    + ∑ k : Fin 16, (∑ d : Fin 4096, at3 x b s d.val * at2 A d.val k.val) * at2 B k.val o) + at1 bias o

end Cert.LowRank

end
-- ==== Proof.Arguments.lean ====
/-
  The arrays the kernel region is entered with, read back to the program's arguments, and with them the
  kernel program's result entry by entry.

  Before the region the host flattens the activations to 16384 x 4096 (row 2048 b + s is position (b, s)),
  exchanges the weight's axes, and views the bias as a row; the changes of float format in between are the
  identity over the extended reals.  So the region's output entry (2048 b + s, o) is the layer's output entry
  (b, s, o), and the reshape after the region puts it at (b, s, o).
-/
import proofs.«142824_j45337674777318_1_alg».proof.Proof.Result
import proofs.«142824_j45337674777318_1_alg».proof.Proof.Layer

noncomputable section

open Idealize.ShloMosaic Idealize.ShloMosaic.TcCoe Idealize.SL.Sem Idealize.ShloMosaic.ValueIdx
open Idealize.ShloMosaic.Pipeline (Dat)

namespace Cert.KernelIdeal.Arguments

open Cert.KernelIdeal Cert.KernelIdeal.Gen Cert.LowRank Cert.KernelIdeal.Tiles Cert.KernelIdeal.Sums Cert.KernelIdeal.Result

variable (m : (ℓ : Loc nD τ sig) → Buf (Elt Ideal) ℓ)

/-! ## The five arrays as the host lines before the region leave them -/

theorem actv_eq (c : Dev nD) : actv m c
    = truncf (F := Ideal) .bf16 (shapeCast S16384x4096 (m ((c.tc : Thread nD τ).loc main_arg0)) shapeCasts_S8x2048x4096_S16384x4096) bitsLt_bf16_f32 := by
  show StableHlo.after hostOps0 (fun b => m (c, b)) (Proc.devRef .tc main_v1) = _
  after_results
  all_goals rfl

theorem wgtT_eq (c : Dev nD) : wgtT m c
    = truncf (F := Ideal) .bf16 (transpose S4096x4096 [1, 0] (m ((c.tc : Thread nD τ).loc main_arg3)) transposes_S4096x4096_S4096x4096_1_0) bitsLt_bf16_f32 := by
  show StableHlo.after hostOps0 (fun b => m (c, b)) (Proc.devRef .tc main_v3) = _
  after_results
  all_goals rfl

theorem facA_eq (c : Dev nD) : facA m c = truncf (F := Ideal) .bf16 (m ((c.tc : Thread nD τ).loc main_arg1)) bitsLt_bf16_f32 := by
  show StableHlo.after hostOps0 (fun b => m (c, b)) (Proc.devRef .tc main_v4) = _
  after_results
  all_goals rfl

theorem facB_eq (c : Dev nD) : facB m c = truncf (F := Ideal) .bf16 (m ((c.tc : Thread nD τ).loc main_arg2)) bitsLt_bf16_f32 := by
  show StableHlo.after hostOps0 (fun b => m (c, b)) (Proc.devRef .tc main_v5) = _
  after_results
  all_goals rfl

theorem biasRow_eq (c : Dev nD) : biasRow m c = shapeCast S1x4096 (m ((c.tc : Thread nD τ).loc main_arg4)) shapeCasts_S4096_S1x4096 := by
  show StableHlo.after hostOps0 (fun b => m (c, b)) (Proc.devRef .tc main_v6) = _
  after_results
  all_goals rfl

/-! ## Their entries -/

/-- Row r of the flattened activations is position (r / 2048, r % 2048). -/
theorem actv_at (c : Dev nD) (r d : ℕ) (hr : r < 16384) (hd : d < 4096) :
    at2 (actv m c) r d = at3 (m ((c.tc : Thread nD τ).loc main_arg0)) (r / 2048) (r % 2048) d := by
  rw [at2_of_lt _ _ _ hr hd, at3_of_lt _ _ _ _ (by omega) (by omega) hd, actv_eq]
  show shapeCast S16384x4096 (m ((c.tc : Thread nD τ).loc main_arg0)) shapeCasts_S8x2048x4096_S16384x4096 (ix2 ⟨r, hr⟩ ⟨d, hd⟩) = _
  refine shapeCast_apply _ _ _ _ ?_
  show ((⟨3, ![8, 2048, 4096]⟩ : Shape).rowMajor _).val = ((⟨2, ![16384, 4096]⟩ : Shape).rowMajor _).val
  rw [Shape.rowMajor_val_three, Shape.rowMajor_val_two]
  show (r / 2048 * 2048 + r % 2048) * 4096 + d = r * 4096 + d
  omega

/-- The transposed weight at (d, q) is the weight at (q, d). -/
theorem wgtT_at (c : Dev nD) (d q : ℕ) (hd : d < 4096) (hq : q < 4096) :
    at2 (wgtT m c) d q = at2 (m ((c.tc : Thread nD τ).loc main_arg3)) q d := by
  rw [at2_of_lt _ _ _ hd hq, at2_of_lt _ _ _ hq hd, wgtT_eq]
  show transpose S4096x4096 [1, 0] (m ((c.tc : Thread nD τ).loc main_arg3)) transposes_S4096x4096_S4096x4096_1_0 (ix2 ⟨d, hd⟩ ⟨q, hq⟩) = _
  exact transpose_apply _ _ _ _ _ (fun b => match b with | ⟨0, _⟩ => rfl | ⟨1, _⟩ => rfl)

theorem facA_at (c : Dev nD) (d k : ℕ) : at2 (facA m c) d k = at2 (m ((c.tc : Thread nD τ).loc main_arg1)) d k := by
  rw [facA_eq]; rfl

theorem facB_at (c : Dev nD) (k q : ℕ) : at2 (facB m c) k q = at2 (m ((c.tc : Thread nD τ).loc main_arg2)) k q := by
  rw [facB_eq]; rfl

/-- The bias row at (0, q) is the bias at q. -/
theorem biasRow_at (c : Dev nD) (q : ℕ) (hq : q < 4096) : at2 (biasRow m c) 0 q = at1 (m ((c.tc : Thread nD τ).loc main_arg4)) q := by
  rw [at2_of_lt _ _ _ (by decide) hq, at1_of_lt _ _ hq, biasRow_eq]
  refine shapeCast_apply _ _ _ _ ?_
  show ((⟨1, ![4096]⟩ : Shape).rowMajor _).val = ((⟨2, ![1, 4096]⟩ : Shape).rowMajor _).val
  rw [Shape.rowMajor_val_one, Shape.rowMajor_val_two]
  show q = 0 * 4096 + q
  omega

/-! ## The result, entry by entry -/

/-- The region's output entry (2048 b + s, o) is the layer's output entry (b, s, o). -/
theorem regionOut_apply (c : Dev nD) (b : Fin 8) (s : Fin 2048) (o : Fin 4096) (hr : 2048 * b.val + s.val < 16384) :
    regionOut m c (ix2 ⟨2048 * b.val + s.val, hr⟩ o)
      = layerEntry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b.val s.val o.val := by
  have hs := s.isLt
  have ho := o.isLt
  show outEntry (actv m c) (wgtT m c) (facA m c) (facB m c) (biasRow m c) (2048 * b.val + s.val) o.val = _
  unfold outEntry layerEntry
  have hx : ∀ d : Fin 4096, at2 (actv m c) (2048 * b.val + s.val) d.val = at3 (m ((c.tc : Thread nD τ).loc main_arg0)) b.val s.val d.val := fun d => by
    rw [actv_at m c _ _ hr d.isLt, show (2048 * b.val + s.val) / 2048 = b.val by omega, show (2048 * b.val + s.val) % 2048 = s.val by omega]
  refine congrArg₂ (· + ·) (congrArg₂ (· + ·) (Finset.sum_congr rfl fun d _ => ?_) (Finset.sum_congr rfl fun k _ => ?_)) (biasRow_at m c _ ho)
  · rw [hx, wgtT_at m c _ _ d.isLt ho]
  · rw [facB_at]
    refine congrArg (· * _) (Finset.sum_congr rfl fun d _ => ?_)
    rw [hx, facA_at]

/-- The kernel program's result at (b, s, o). -/
theorem result_apply (c : Dev nD) (b : Fin 8) (s : Fin 2048) (o : Fin 4096) :
    result m c (ix3 b s o) = layerEntry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b.val s.val o.val := by
  have hb := b.isLt
  have hs := s.isLt
  have hr : 2048 * b.val + s.val < 16384 := by omega
  rw [← regionOut_apply m c b s o hr]
  unfold result
  refine shapeCast_apply _ _ _ _ ?_
  show ((⟨2, ![16384, 4096]⟩ : Shape).rowMajor _).val = ((⟨3, ![8, 2048, 4096]⟩ : Shape).rowMajor _).val
  rw [Shape.rowMajor_val_three, Shape.rowMajor_val_two]
  show (2048 * b.val + s.val) * 4096 + o.val = (b.val * 2048 + s.val) * 4096 + o.val
  omega

end Cert.KernelIdeal.Arguments

end
-- ==== Proof.RefValue.lean ====
/-
  The reference program's result entry by entry: it is the layer's output entry.

  The reference contracts the activations with the weight over the 4096 features, contracts them with the
  first low-rank factor and carries that through the second factor over the 16 ranks, adds the two, and adds
  the bias broadcast over batch and sequence.  Read one operation at a time at an entry (b, s, o), that is
  `layerEntry` of the five arguments word for word; only the operands' index tuples have to be identified.
-/
import proofs.«142824_j45337674777318_1_alg».proof.Proof.Gen.ReferenceIdeal.Run
import proofs.«142824_j45337674777318_1_alg».proof.Proof.Gen.ReferenceIdeal.Read
import proofs.«142824_j45337674777318_1_alg».proof.Proof.Layer

noncomputable section

open Idealize.ShloMosaic Idealize.ShloMosaic.ValueIdx

namespace Cert.ReferenceIdeal.Spec

open Cert.ReferenceIdeal Cert.ReferenceIdeal.Gen Cert.LowRank

/-- The reference's result at entry (b, s, o). -/
theorem result_apply (x : (⟨S8x2048x4096, .f32⟩ : BufTy).Contents (Elt Ideal)) (A : (⟨S4096x16, .f32⟩ : BufTy).Contents (Elt Ideal))
    (B : (⟨S16x4096, .f32⟩ : BufTy).Contents (Elt Ideal)) (w : (⟨S4096x4096, .f32⟩ : BufTy).Contents (Elt Ideal))
    (bias : (⟨S4096, .f32⟩ : BufTy).Contents (Elt Ideal)) (b : Fin 8) (s : Fin 2048) (o : Fin 4096) :
    Read.val_main_v6 (F := Ideal) x A B w bias (ix3 b s o) = layerEntry x A B w bias b.val s.val o.val := by
  rw [Read.val_main_v6_apply, Read.val_main_v3_apply, Read.val_main_v0_apply, Read.val_main_v2_apply,
    Read.val_main_v5_apply, Read.val_main_v4_apply]
  unfold layerEntry
  simp only [Ideal.addf_def]
  refine congrArg₂ (· + ·) (congrArg₂ (· + ·) (Finset.sum_congr rfl fun d _ => ?_) (Finset.sum_congr rfl fun k _ => ?_)) ?_
  · rw [at3_ix, at2_ix]
    exact congrArg₂ (· * ·) (congrArg x (funext fun a => match a with | ⟨0, _⟩ => rfl | ⟨1, _⟩ => rfl | ⟨2, _⟩ => rfl)) (congrArg w (funext fun a => match a with | ⟨0, _⟩ => rfl | ⟨1, _⟩ => rfl))
  · rw [Read.val_main_v1_apply, at2_ix]
    refine congrArg₂ (· * ·) (Finset.sum_congr rfl fun d _ => ?_) (congrArg B (funext fun a => match a with | ⟨0, _⟩ => rfl | ⟨1, _⟩ => rfl))
    rw [at3_ix, at2_ix]
    exact congrArg₂ (· * ·) (congrArg x (funext fun a => match a with | ⟨0, _⟩ => rfl | ⟨1, _⟩ => rfl | ⟨2, _⟩ => rfl)) (congrArg A (funext fun a => match a with | ⟨0, _⟩ => rfl | ⟨1, _⟩ => rfl))
  · rw [at1_ix]
    exact congrArg bias (funext fun a => match a with | ⟨0, _⟩ => rfl)

end Cert.ReferenceIdeal.Spec

end
-- ==== Proof.lean ====
/-
  A dense layer with a rank-16 correction: for activations x[b,s,d], weight w[o,d], factors A[d,k] and B[k,o],
  and bias[o],

      out[b,s,o] = ( sum_d x[b,s,d] w[o,d]  +  sum_k (sum_d x[b,s,d] A[d,k]) B[k,o] ) + bias[o].

  The kernel tiles the flattened output 16 x 4 and walks the 4096 features in four blocks of 1024, keeping the
  dense partial sums and the rank-16 partial sums of the current output tile in scratch memory; at the last
  block it forms the tile from the two finished sums.  The reference contracts all 4096 features at once.
  Over the extended reals the two agree entry by entry: a sum of 4096 terms is the sum of its four consecutive
  blocks (associativity and commutativity of addition only, so no finiteness is used), and the changes of float
  format are the identity.

  The modules: BlockSum (the arithmetic), Layer (the output entry as a function of the arguments), Pieces (what
  one grid point leaves in each buffer), Payloads (those values entry by entry), Tiles (where a point's input
  tiles sit in the arrays), Sums (the running sums and the tile written at the last block), Result (the kernel
  program's run read: the output array and the reshape after it), Arguments (the arrays read back to the
  arguments), RefValue (the reference's result entry by entry).  The idealization rewrote nothing, so the
  preservation claim is trivial.
-/
import proofs.«142824_j45337674777318_1_alg».proof.Defs
import proofs.«142824_j45337674777318_1_alg».proof.Proof.Gen.Kernel
import proofs.«142824_j45337674777318_1_alg».proof.Proof.Gen.Kernel.Frame
import proofs.«142824_j45337674777318_1_alg».proof.Proof.Gen.KernelIdeal
import proofs.«142824_j45337674777318_1_alg».proof.Proof.Gen.KernelIdeal.Frame
import proofs.«142824_j45337674777318_1_alg».proof.Proof.Gen.ReferenceIdeal
import proofs.«142824_j45337674777318_1_alg».proof.Proof.Gen.ReferenceIdeal.Run
import proofs.«142824_j45337674777318_1_alg».proof.Proof.Gen.ReferenceIdeal.Read
import proofs.«142824_j45337674777318_1_alg».proof.Proof.Gen.Pre_finite_inputs
import proofs.«142824_j45337674777318_1_alg».proof.Proof.Arguments
import proofs.«142824_j45337674777318_1_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer's output: entry (b, s, o) of either result is `layerEntry` of arguments
    that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1,
    (hagree c).2.2.2.2]
  funext i
  obtain ⟨b, s, o, rfl⟩ : ∃ (b : Fin 8) (s : Fin 2048) (o : Fin 4096), i = ix3 b s o := ⟨i 0, i 1, i 2, eq_ix3 i⟩
  rw [Cert.ReferenceIdeal.Spec.result_apply]
  exact (Cert.KernelIdeal.Arguments.result_apply m c b s o).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
